-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S10000x256 .f32) (main_arg1 : FVec F S10000x10000 .f32) (main_arg2 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S10000x256 : Shape := ⟨2, ![10000, 256]⟩
abbrev S10000x10000 : Shape := ⟨2, ![10000, 10000]⟩
abbrev S256x256 : Shape := ⟨2, ![256, 256]⟩
abbrev S400x10000 : Shape := ⟨2, ![400, 10000]⟩
abbrev S400x256 : Shape := ⟨2, ![400, 256]⟩

abbrev nBuf : Space → Nat
  | .hbm => 4
  | .vmem => 6
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x256, .f32⟩
  | .local _ .vmem, ⟨3, _⟩ => ⟨S256x256, .f32⟩
  | .local _ .vmem, ⟨4, _⟩ => ⟨S400x256, .f32⟩
  | .local _ .vmem, ⟨5, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  inb_S400x256_S400x256_0_0 : ∀ a, (![0, 0] : Fin 2 → Nat) a + S400x256.size a ≤ S400x256.size a
  h_S400x256 : 0 < S400x256.numel
  dot_S400x10000_S10000x256_S400x256_1_0_0_1_n_n_wf : DotDims.WF S400x10000 S10000x256 S400x256 [1] [0] [0] [1] [] []
  dot_S400x256_S256x256_S400x256_1_1_0_0_n_n_wf : DotDims.WF S400x256 S256x256 S400x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x256.size a ≤ S10000x256.size a
  hwx0_3 : ∀ i : grid0.Coords, EltTy.bits .f32 = 32 ∨ (Rect.block (s := S10000x256) S400x256.size (cc0_transform_3 i) (hinb0_3 i)).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_1_0_0_n_n : DotDims S400x256 S256x256 S400x256 where
  lhsContracting := [1]
  rhsContracting := [1]
  lhsNonContracting := [0]
  rhsNonContracting := [0]
  lhsBatch := []
  rhsBatch := []
  wf := dot_S400x256_S256x256_S400x256_1_1_0_0_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩

abbrev nBuf : Space → Nat
  | .hbm => 6
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x256, .f32⟩
  | .hbm, ⟨4, _⟩ => ⟨S10000x256, .f32⟩
  | .hbm, ⟨5, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S256x256_S256x256_1_0 : S256x256.Transposes [1, 0] S256x256
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.MatLaw.lean ====
/-
  The algebra that joins the two programs. The kernel multiplies a block of adjacency rows by the feature
  matrix and then by the transposed weight, (A · X) · Wᵀ; the reference forms X · Wᵀ first and multiplies the
  adjacency onto it, A · (X · Wᵀ). Entry by entry these are two iterated sums of triple products,
      ∑ d, (∑ k, a k * x k d) * w d   and   ∑ k, a k * ∑ d, x k d * w d,
  equal over the reals by distributivity and an exchange of the two summations. On the extended reals
  distributivity fails at the infinities, so the law is stated for entries that are real numbers: that is what
  the finiteness precondition provides.
-/
import Idealize.ShloMosaic.PureOps.Ideal.Laws
import Idealize.ShloMosaic.Lib.ValueIdx

noncomputable section

open scoped BigOperators
open Idealize.ShloMosaic Idealize.ShloMosaic.ValueIdx

namespace GraphConv

/-- A finite sum of real numbers, each read as an extended real, is the real sum read as an extended real. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- One entry of (A · X) · Wᵀ against the same entry of A · (X · Wᵀ): for a row `a` of the adjacency, the
    feature matrix `x` and a row `w` of the weight, all with real entries, the two iterated sums agree. -/
theorem assoc_entry {K D : Type} [Fintype K] [Fintype D] (a : K → EReal) (x : K → D → EReal) (w : D → EReal)
    (ha : ∀ k, ∃ r : ℝ, a k = r) (hx : ∀ k d, ∃ r : ℝ, x k d = r) (hw : ∀ d, ∃ r : ℝ, w d = r) :
    ∑ d, (∑ k, a k * x k d) * w d = ∑ k, a k * ∑ d, x k d * w d := by
  choose ra hra using ha
  choose rx hrx using hx
  choose rw' hrw using hw
  simp only [hra, hrx, hrw, ← EReal.coe_mul, coe_sum]
  congr 1
  simp only [Finset.sum_mul, Finset.mul_sum]
  rw [Finset.sum_comm]
  refine Finset.sum_congr rfl fun k _ => Finset.sum_congr rfl fun d _ => ?_
  ring

/-! ## The graph convolution as one function of the three arrays -/

/-- Entry (p, o) of (adj · x) · wᵀ, in the order the kernel sums: first over the nodes, then over the features. -/
def convAt (x : (⟨2, ![10000, 256]⟩ : Shape).Idx → EReal) (adj : (⟨2, ![10000, 10000]⟩ : Shape).Idx → EReal)
    (w : (⟨2, ![256, 256]⟩ : Shape).Idx → EReal) (p : Fin 10000) (o : Fin 256) : EReal :=
  ∑ d : Fin 256, (∑ k : Fin 10000, adj (ix2 p k) * x (ix2 k d)) * w (ix2 o d)

/-- The whole result array: entry i is `convAt` at i's two coordinates. -/
def conv (x : (⟨2, ![10000, 256]⟩ : Shape).Idx → EReal) (adj : (⟨2, ![10000, 10000]⟩ : Shape).Idx → EReal)
    (w : (⟨2, ![256, 256]⟩ : Shape).Idx → EReal) : (⟨2, ![10000, 256]⟩ : Shape).Idx → EReal :=
  fun i => convAt x adj w (i 0) (i 1)

theorem conv_ix2 (x : (⟨2, ![10000, 256]⟩ : Shape).Idx → EReal) (adj : (⟨2, ![10000, 10000]⟩ : Shape).Idx → EReal)
    (w : (⟨2, ![256, 256]⟩ : Shape).Idx → EReal) (p : Fin 10000) (o : Fin 256) :
    conv x adj w (ix2 p o) = convAt x adj w p o := rfl

/-- With real entries the same number in the order the reference sums: adj · (x · wᵀ). -/
theorem convAt_eq_assoc (x : (⟨2, ![10000, 256]⟩ : Shape).Idx → EReal) (adj : (⟨2, ![10000, 10000]⟩ : Shape).Idx → EReal)
    (w : (⟨2, ![256, 256]⟩ : Shape).Idx → EReal)
    (hx : ∀ i, ∃ r : ℝ, x i = r) (ha : ∀ i, ∃ r : ℝ, adj i = r) (hw : ∀ i, ∃ r : ℝ, w i = r) (p : Fin 10000) (o : Fin 256) :
    convAt x adj w p o = ∑ k : Fin 10000, adj (ix2 p k) * ∑ d : Fin 256, x (ix2 k d) * w (ix2 o d) :=
  assoc_entry (fun k => adj (ix2 p k)) (fun k d => x (ix2 k d)) (fun d => w (ix2 o d))
    (fun k => ha _) (fun k d => hx _) (fun d => hw _)

end GraphConv

end
-- ==== Proof.RealInputs.lean ====
/-
  What the precondition says of the three inputs. The precondition is the conjunction, over the three arrays, of
  "every entry's absolute value is below +∞". On the extended reals |x| = max x (-x), and max x (-x) < ⊤ leaves
  out exactly x = ⊤ and x = ⊥: every entry of every input is a real number.
-/
import proofs.«161417_g6665789243860_cont_9to1c4b_662_4_alg».proof.Pre_finite_inputs
import Idealize.ShloMosaic.Lib.ReduceAll
import Idealize.ShloMosaic.Lib.ValueIdx
import Idealize.ShloMosaic.PureOps.Ideal.Laws

noncomputable section

namespace GraphConv

open Idealize.ShloMosaic

/-- The word 0x7F800000 denotes +∞. -/
theorem inf_word : Ideal.ofBits .f32 0x7F800000#32 = (⊤ : EReal) := by simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = r := by
  rw [inf_word] at h
  have h' : max x (-x) < ⊤ := by
    by_contra hn
    unfold Ideal.cmp at h
    simp [hn] at h
  induction x using EReal.rec with
  | bot => simp at h'
  | coe r => exact ⟨r, rfl⟩
  | top => simp at h'

instance : Subsingleton Cert.Pre_finite_inputs.S_.Idx := ⟨fun a b => funext fun d => d.elim0⟩

/-- Under the precondition every entry of the features, of the adjacency and of the weight is a real number. -/
theorem real_of_pre [Cert.Pre_finite_inputs.Facts]
    (x : FVec Ideal Cert.Pre_finite_inputs.S10000x256 .f32) (a : FVec Ideal Cert.Pre_finite_inputs.S10000x10000 .f32)
    (w : FVec Ideal Cert.Pre_finite_inputs.S256x256 .f32)
    (h : Cert.Pre_finite_inputs.fn (F := Ideal) x a w = fun _ => 1#1) :
    (∀ i, ∃ r : ℝ, x i = r) ∧ (∀ i, ∃ r : ℝ, a i = r) ∧ (∀ i, ∃ r : ℝ, w i = r) := by
  have h0 := congrFun h ValueIdx.ix0
  dsimp only [Cert.Pre_finite_inputs.fn] at h0
  obtain ⟨hxa, hw⟩ := IntOp.andi_eq_one.1 h0
  obtain ⟨hx, ha⟩ := IntOp.andi_eq_one.1 hxa
  exact ⟨fun i => real_of_abs_lt_inf _ (Host.reduce_andi_all _ _ _ _ _ hx i),
    fun i => real_of_abs_lt_inf _ (Host.reduce_andi_all _ _ _ _ _ ha i),
    fun i => real_of_abs_lt_inf _ (Host.reduce_andi_all _ _ _ _ _ hw i)⟩

end GraphConv

end
-- ==== Proof.RefValue.lean ====
/-
  What the reference computes, entry by entry, at the ideal instance: it transposes the weight, multiplies the
  features by it (contracting the 256 input features), and multiplies the adjacency onto that product
  (contracting the 10000 nodes). Entry (p, o) of the result is
      ∑ k, adj (p, k) * ∑ d, feats (k, d) * weight (o, d).
-/
import proofs.«161417_g6665789243860_cont_9to1c4b_662_4_alg».proof.Proof.Gen.ReferenceIdeal.Read

noncomputable section

namespace Cert.ReferenceIdeal.Hand

open Cert.ReferenceIdeal Cert.ReferenceIdeal.Gen Cert.ReferenceIdeal.Read Idealize.ShloMosaic Idealize.ShloMosaic.ValueIdx

/-- The adjacency is read at (row of the result, contracted node). -/
theorem adj_at (p : Fin 10000) (o : Fin 256) (k : Fin 10000) : lidx_main_v2 (ix2 p o) k = ix2 p k :=
  funext fun a => Fin.ext (by match a with | ⟨0, _⟩ => rfl | ⟨1, _⟩ => rfl)
/-- The inner product is read at (contracted node, column of the result). -/
theorem inner_at (p : Fin 10000) (o : Fin 256) (k : Fin 10000) : ridx_main_v2 (ix2 p o) k = ix2 k o :=
  funext fun a => Fin.ext (by match a with | ⟨0, _⟩ => rfl | ⟨1, _⟩ => rfl)
/-- The features are read at (node, contracted feature). -/
theorem feats_at (k : Fin 10000) (o : Fin 256) (d : Fin 256) : lidx_main_v1 (ix2 k o) d = ix2 k d :=
  funext fun a => Fin.ext (by match a with | ⟨0, _⟩ => rfl | ⟨1, _⟩ => rfl)
/-- The transposed weight is read at (contracted feature, column of the result). -/
theorem wt_at (k : Fin 10000) (o : Fin 256) (d : Fin 256) : ridx_main_v1 (ix2 k o) d = ix2 d o :=
  funext fun a => Fin.ext (by match a with | ⟨0, _⟩ => rfl | ⟨1, _⟩ => rfl)
/-- The transpose swaps the two coordinates. -/
theorem w_at (o : Fin 256) (d : Fin 256) : idx_main_v0 (ix2 d o) = ix2 o d :=
  funext fun a => Fin.ext (by match a with | ⟨0, _⟩ => rfl | ⟨1, _⟩ => rfl)

/-- Entry (p, o) of the reference's result. -/
theorem ref_apply (x : (⟨S10000x256, .f32⟩ : BufTy).Contents (Elt Ideal)) (a : (⟨S10000x10000, .f32⟩ : BufTy).Contents (Elt Ideal))
    (w : (⟨S256x256, .f32⟩ : BufTy).Contents (Elt Ideal)) (p : Fin 10000) (o : Fin 256) :
    val_main_v2 (F := Ideal) x a w (ix2 p o)
      = ∑ k : Fin 10000, a (ix2 p k) * ∑ d : Fin 256, x (ix2 k d) * w (ix2 o d) := by
  rw [val_main_v2_apply]
  refine Finset.sum_congr rfl fun k _ => ?_
  rw [adj_at, inner_at, val_main_v1_apply]
  refine congrArg (a (ix2 p k) * ·) (Finset.sum_congr rfl fun d _ => ?_)
  rw [feats_at, wt_at, val_main_v0_apply, w_at]

end Cert.ReferenceIdeal.Hand

end
-- ==== Proof.BodyValue.lean ====
/-
  What the kernel's body computes, entry by entry, at the ideal instance. The body loads a block of 400 adjacency
  rows (400 × 10000), the whole feature matrix (10000 × 256) and the whole weight (256 × 256); it multiplies the
  rows by the features, contracting the 10000 nodes, and multiplies that product by the weight, contracting the
  weight's SECOND axis (so the weight enters transposed). Both products start from a zero accumulator, so entry
  (p, o) of the stored block is
      ∑ d, (∑ k, rows (p, k) * feats (k, d)) * weight (o, d).
-/
import proofs.«161417_g6665789243860_cont_9to1c4b_662_4_alg».proof.Proof.Gen.KernelIdeal.Skeleton
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-! ## The first product: adjacency rows times features, contracting the nodes -/

/-- The row of the left operand is the row of the result. -/
theorem rowsFeats_lhs_0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
/-- The column of the left operand is the contracted node. -/
theorem rowsFeats_lhs_1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q
/-- The row of the right operand is the contracted node. -/
theorem rowsFeats_rhs_0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q
/-- The column of the right operand is the column of the result. -/
theorem rowsFeats_rhs_1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- Entry (p, d) of rows · feats is the sum over the nodes k of rows (p, k) * feats (k, d). -/
theorem rowsFeats_apply (v0 : FVec Ideal S400x10000 .f32) (v1 : FVec Ideal S10000x256 .f32) (p : Fin 400) (d : Fin 256) :
    matmul (F := Ideal) dot_S400x10000_S10000x256_S400x256_1_0_0_1_n_n none v0 v1 (constant (F := Ideal) S400x256 .f32 0x00000000#32) (ix2 p d)
      = ∑ k : Fin 10000, v0 (ix2 p k) * v1 (ix2 k d) := by
  unfold matmul
  rw [Ideal.matmul_constant_zero_apply, ← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 p d) ((contrEquiv1 dot_S400x10000_S10000x256_S400x256_1_0_0_1_n_n 10000 rfl rfl).symm k) = ix2 p k := funext fun a => Fin.ext (by
    match a with
    | ⟨0, _⟩ => exact rowsFeats_lhs_0 _ _
    | ⟨1, _⟩ => exact (rowsFeats_lhs_1 _ _).trans hk)
  have er : dot_S400x10000_S10000x256_S400x256_1_0_0_1_n_n.rhsIdx (ix2 p d) ((contrEquiv1 dot_S400x10000_S10000x256_S400x256_1_0_0_1_n_n 10000 rfl rfl).symm k) = ix2 k d := funext fun a => Fin.ext (by
    match a with
    | ⟨0, _⟩ => exact (rowsFeats_rhs_0 _ _).trans hk
    | ⟨1, _⟩ => exact rowsFeats_rhs_1 _ _)
  rw [el, er]

/-! ## The second product: by the weight, contracting the weight's second axis -/

/-- The row of the left operand is the row of the result. -/
theorem byWeight_lhs_0 (i : S400x256.Idx) (q : dot_S400x256_S256x256_S400x256_1_1_0_0_n_n.contr.Idx) :
    (dot_S400x256_S256x256_S400x256_1_1_0_0_n_n.lhsIdx i q 0).val = (i 0).val := by
  unfold DotDims.lhsIdx
  rw [dif_neg (show ¬(0 : Fin S400x256.rank) ∈ dot_S400x256_S256x256_S400x256_1_1_0_0_n_n.lhsBatch by decide), dif_pos (show (0 : Fin S400x256.rank) ∈ dot_S400x256_S256x256_S400x256_1_1_0_0_n_n.lhsNonContracting by decide)]
  rfl
/-- The column of the left operand is the contracted feature. -/
theorem byWeight_lhs_1 (i : S400x256.Idx) (q : dot_S400x256_S256x256_S400x256_1_1_0_0_n_n.contr.Idx) :
    (dot_S400x256_S256x256_S400x256_1_1_0_0_n_n.lhsIdx i q 1).val = (q ⟨0, by decide⟩).val :=
  dot_S400x256_S256x256_S400x256_1_1_0_0_n_n.lhsIdx_val_of_single rfl i q
/-- The ROW of the weight is the column of the result: the weight enters transposed. -/
theorem byWeight_rhs_0 (i : S400x256.Idx) (q : dot_S400x256_S256x256_S400x256_1_1_0_0_n_n.contr.Idx) :
    (dot_S400x256_S256x256_S400x256_1_1_0_0_n_n.rhsIdx i q 0).val = (i 1).val := by
  unfold DotDims.rhsIdx
  rw [dif_neg (show ¬(0 : Fin S256x256.rank) ∈ dot_S400x256_S256x256_S400x256_1_1_0_0_n_n.rhsBatch by decide), dif_pos (show (0 : Fin S256x256.rank) ∈ dot_S400x256_S256x256_S400x256_1_1_0_0_n_n.rhsNonContracting by decide)]
  rfl
/-- The column of the weight is the contracted feature. -/
theorem byWeight_rhs_1 (i : S400x256.Idx) (q : dot_S400x256_S256x256_S400x256_1_1_0_0_n_n.contr.Idx) :
    (dot_S400x256_S256x256_S400x256_1_1_0_0_n_n.rhsIdx i q 1).val = (q ⟨0, by decide⟩).val :=
  dot_S400x256_S256x256_S400x256_1_1_0_0_n_n.rhsIdx_val_of_single rfl i q

/-- Entry (p, o) of g · weightᵀ is the sum over the features d of g (p, d) * weight (o, d). -/
theorem byWeight_apply (g : FVec Ideal S400x256 .f32) (v3 : FVec Ideal S256x256 .f32) (p : Fin 400) (o : Fin 256) :
    matmul (F := Ideal) dot_S400x256_S256x256_S400x256_1_1_0_0_n_n none g v3 (constant (F := Ideal) S400x256 .f32 0x00000000#32) (ix2 p o)
      = ∑ d : Fin 256, g (ix2 p d) * v3 (ix2 o d) := by
  unfold matmul
  rw [Ideal.matmul_constant_zero_apply, ← Equiv.sum_comp (contrEquiv1 dot_S400x256_S256x256_S400x256_1_1_0_0_n_n 256 rfl rfl).symm]
  refine Finset.sum_congr rfl fun d _ => ?_
  have hd := contrEquiv1_symm_val dot_S400x256_S256x256_S400x256_1_1_0_0_n_n 256 rfl rfl d
  have el : dot_S400x256_S256x256_S400x256_1_1_0_0_n_n.lhsIdx (ix2 p o) ((contrEquiv1 dot_S400x256_S256x256_S400x256_1_1_0_0_n_n 256 rfl rfl).symm d) = ix2 p d := funext fun a => Fin.ext (by
    match a with
    | ⟨0, _⟩ => exact byWeight_lhs_0 _ _
    | ⟨1, _⟩ => exact (byWeight_lhs_1 _ _).trans hd)
  have er : dot_S400x256_S256x256_S400x256_1_1_0_0_n_n.rhsIdx (ix2 p o) ((contrEquiv1 dot_S400x256_S256x256_S400x256_1_1_0_0_n_n 256 rfl rfl).symm d) = ix2 o d := funext fun a => Fin.ext (by
    match a with
    | ⟨0, _⟩ => exact byWeight_rhs_0 _ _
    | ⟨1, _⟩ => exact (byWeight_rhs_1 _ _).trans hd)
  rw [el, er]

/-! ## The stored block -/

/-- Entry (p, o) of the block the body stores. -/
theorem body_apply (v0 : FVec Ideal S400x10000 .f32) (v1 : FVec Ideal S10000x256 .f32) (v3 : FVec Ideal S256x256 .f32) (p : Fin 400) (o : Fin 256) :
    k0_pay1 (F := Ideal) v0 v1 v3 (ix2 p o)
      = ∑ d : Fin 256, (∑ k : Fin 10000, v0 (ix2 p k) * v1 (ix2 k d)) * v3 (ix2 o d) := by
  unfold k0_pay1
  refine (byWeight_apply _ v3 p o).trans ?_
  refine Finset.sum_congr rfl fun d _ => ?_
  exact congrArg (· * v3 (ix2 o d)) (rowsFeats_apply v0 v1 p d)

end Cert.KernelIdeal.Hand

end
-- ==== Proof.KernelValue.lean ====
/-
  From the blocks to the array. The grid has 25 points; point t stages adjacency rows 400·t … 400·t + 399 (all
  10000 columns), the whole feature matrix and the whole weight, and writes back rows 400·t … 400·t + 399 of the
  result. So what point t writes back is block t of the graph convolution `GraphConv.conv` of the three argument
  arrays, the 25 blocks tile the 10000 rows, and the result array ends holding `conv` of the arguments.
-/
import proofs.«161417_g6665789243860_cont_9to1c4b_662_4_alg».proof.Proof.Gen.KernelIdeal.Value
import proofs.«161417_g6665789243860_cont_9to1c4b_662_4_alg».proof.Proof.BodyValue
import proofs.«161417_g6665789243860_cont_9to1c4b_662_4_alg».proof.Proof.MatLaw
import Idealize.ShloMosaic.Lib.Pipeline.Value

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx GraphConv
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The printed index maps over the 25 points: the adjacency's and the result's row block is the point's number,
    every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks as entries of the argument arrays -/

/-- The adjacency block at point t is rows 400·t … 400·t + 399 of the adjacency. -/
theorem adj_blk (c : Dev nD) (t : Fin cfg0.N) (y : S400x10000.Idx) (i : S10000x10000.Idx)
    (h0 : (i 0).val = 400 * t.val + (y 0).val) (h1 : (i 1).val = (y 1).val) :
    (iblk m c 0 t : Vec Ideal S400x10000 .f32) y = (V m c main_arg1 : S10000x10000.Idx → Elt Ideal .f32) i := by
  obtain ⟨e0, e1, -⟩ := idx_facts t
  unfold iblk
  rw [View.read_apply]
  show V m c main_arg1 _ = V m c main_arg1 _
  congr 1
  funext a
  apply Fin.ext
  match a with
  | ⟨0, _⟩ => show win0_0.index t (0 : Fin 2) * 400 + 1 * (y 0).val = (i 0).val; rw [e0, h0]; omega
  | ⟨1, _⟩ => show win0_0.index t (1 : Fin 2) * 10000 + 1 * (y 1).val = (i 1).val; rw [e1, h1]; omega

/-- The feature block at every point is the whole feature matrix. -/
theorem feats_blk (c : Dev nD) (t : Fin cfg0.N) :
    (iblk m c 1 t : Vec Ideal S10000x256 .f32) = (V m c main_arg0 : S10000x256.Idx → Elt Ideal .f32) := by
  obtain ⟨-, -, e2, e3, -⟩ := idx_facts t
  funext y
  unfold iblk
  rw [View.read_apply]
  show V m c main_arg0 _ = V m c main_arg0 _
  congr 1
  funext a
  apply Fin.ext
  match a with
  | ⟨0, _⟩ => show win0_1.index t (0 : Fin 2) * 10000 + 1 * (y 0).val = (y 0).val; rw [e2]; omega
  | ⟨1, _⟩ => show win0_1.index t (1 : Fin 2) * 256 + 1 * (y 1).val = (y 1).val; rw [e3]; omega

/-- The weight block at every point is the whole weight. -/
theorem weight_blk (c : Dev nD) (t : Fin cfg0.N) :
    (iblk m c 2 t : Vec Ideal S256x256 .f32) = (V m c main_arg2 : S256x256.Idx → Elt Ideal .f32) := by
  obtain ⟨-, -, -, -, e4, e5, -⟩ := idx_facts t
  funext y
  unfold iblk
  rw [View.read_apply]
  show V m c main_arg2 _ = V m c main_arg2 _
  congr 1
  funext a
  apply Fin.ext
  match a with
  | ⟨0, _⟩ => show win0_2.index t (0 : Fin 2) * 256 + 1 * (y 0).val = (y 0).val; rw [e4]; omega
  | ⟨1, _⟩ => show win0_2.index t (1 : Fin 2) * 256 + 1 * (y 1).val = (y 1).val; rw [e5]; omega

/-! ## What one point stores is a block of the graph convolution -/

/-- The stored block at entry j, when the loaded rows are rows 400·n … of `adj` and the other two loads are the
    whole `x` and `w`, is `conv x adj w` at row 400·n + j₀ and column j₁. -/
theorem stored_eq_conv (v0 : FVec Ideal S400x10000 .f32) (x : FVec Ideal S10000x256 .f32) (w : FVec Ideal S256x256 .f32)
    (adj : FVec Ideal S10000x10000 .f32) (n : Nat) (j : S400x256.Idx) (i : S10000x256.Idx)
    (hi0 : (i 0).val = 400 * n + (j 0).val) (hi1 : (i 1).val = (j 1).val)
    (hv0 : ∀ (y : S400x10000.Idx) (i' : S10000x10000.Idx), (i' 0).val = 400 * n + (y 0).val → (i' 1).val = (y 1).val → v0 y = adj i') :
    k0_pay1 (F := Ideal) v0 x w j = conv x adj w i := by
  obtain ⟨p, o, rfl⟩ : ∃ (p : Fin 400) (o : Fin 256), j = ix2 p o := ⟨j 0, j 1, eq_ix2 j⟩
  obtain ⟨r, o', rfl⟩ : ∃ (r : Fin 10000) (o' : Fin 256), i = ix2 r o' := ⟨i 0, i 1, eq_ix2 i⟩
  obtain rfl : o' = o := Fin.ext hi1
  rw [body_apply, conv_ix2]
  unfold convAt
  refine Finset.sum_congr rfl fun d _ => ?_
  refine congrArg₂ (· * ·) (Finset.sum_congr rfl fun k _ => ?_) rfl
  exact congrArg (· * x (ix2 k d)) (hv0 (ix2 p k) (ix2 r k) hi0 rfl)

/-- WHAT POINT t WRITES BACK is block t of the graph convolution of the argument arrays. -/
theorem flushed_eq (c : Dev nD) (t : Fin cfg0.N) :
    (dats m 0 c).flushed 3 t
      = ((cfg0.win 3).blk t).view.read (Elt Ideal) (conv (V m c main_arg0) (V m c main_arg1) (V m c main_arg2)) := by
  obtain ⟨-, -, -, -, -, -, e6, e7⟩ := idx_facts t
  rw [flushed3]
  unfold out0_3
  rw [View.canon_unit_zero origin]
  simp only [View.ld_unit_zero (S := S400x10000) origin, View.ld_unit_zero (S := S10000x256) origin, View.ld_unit_zero (S := S256x256) origin]
  rw [feats_blk, weight_blk]
  funext j
  show k0_pay1 (F := Ideal) (iblk m c 0 t) (V m c main_arg0) (V m c main_arg2) j
    = conv (V m c main_arg0) (V m c main_arg1) (V m c main_arg2) (((cfg0.win 3).blk t).view.emb j)
  refine stored_eq_conv _ _ _ _ t.val j _ ?_ ?_ (fun y i' h0 h1 => adj_blk m c t y i' h0 h1)
  · show win0_3.index t (0 : Fin 2) * 400 + 1 * (j 0).val = 400 * t.val + (j 0).val
    rw [e6]; omega
  · show win0_3.index t (1 : Fin 2) * 256 + 1 * (j 1).val = (j 1).val
    rw [e7]; omega

/-! ## The 25 blocks tile the result -/

/-- An index of the result is in point t's block iff each coordinate is in the block's range on its axis. -/
theorem mem_blk (t : Fin cfg0.N) (i : S10000x256.Idx) :
    i ∈ ((cfg0.win 3).blk t).view.set ↔ ∀ a : Fin 2, win0_3.index t a * S400x256.size a ≤ (i a).val ∧ (i a).val < win0_3.index t a * S400x256.size a + S400x256.size a := by
  show i ∈ ((View.whole main_v0).slice (win0_3.rect t)).set ↔ _
  rw [View.set_slice_whole, Rect.mem_set_unit]
  exact Iff.rfl

/-- Row r of the result is written by point r / 400. -/
theorem covered (i : S10000x256.Idx) :
    ∃ t : Fin cfg0.N, (cfg0.win 3).flush t = true ∧ i ∈ ((cfg0.win 3).blk t).view.set := by
  have hi0 : (i 0).val < 10000 := idx2_lt0 i
  have hi1 : (i 1).val < 256 := idx2_lt1 i
  have hN : cfg0.N = 25 := N_0
  obtain ⟨t, ht⟩ : ∃ t : Fin cfg0.N, t.val = (i 0).val / 400 := ⟨⟨(i 0).val / 400, by rw [hN]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 400 ≤ (i 0).val ∧ (i 0).val < win0_3.index t (0 : Fin 2) * 400 + 400; rw [e6, ht]; omega
  | ⟨1, _⟩ => show win0_3.index t (1 : Fin 2) * 256 ≤ (i 1).val ∧ (i 1).val < win0_3.index t (1 : Fin 2) * 256 + 256; rw [e7]; omega

/-- THE RESULT ARRAY after the run is the graph convolution of the argument arrays. -/
theorem final (c : Dev nD) :
    (dats m 0 c).arrAt 3 cfg0.N
      = conv (m ((c : Thread nD τ).loc main_arg0)) (m ((c : Thread nD τ).loc main_arg1)) (m ((c : Thread nD τ).loc main_arg2)) :=
  (dats m 0 c).arrAt_eq_of_cover 3 (conv (V m c main_arg0) (V m c main_arg1) (V m c main_arg2))
    (fun t _ => flushed_eq m c t) covered

/-- The kernel's run, read: the result at the graph convolution of the arguments, the arguments unchanged. -/
theorem run : θ_run defs (onTc (τ := τ) (main (F := Ideal))) ⟨m, fun _ => 0, ρ⟩ fun r => ∀ c : Dev nD,
      r.2.mem ((c : Thread nD τ).loc main_v0)
        = conv (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Hand

end
-- ==== Proof.Claims.lean ====
/-
  The five claims. The two kernel frames are the generated class-A frames; the reference's frame is its generated
  run with the result dropped; the idealization rewrote nothing, so `preserves` is `True`. For the value claim:
  the kernel's result array ends at `GraphConv.conv` of its arguments, entry (p, o) being
  ∑ d, (∑ k, adj (p, k) · x (k, d)) · w (o, d); the reference's ends at ∑ k, adj (p, k) · ∑ d, x (k, d) · w (o, d).
  The precondition makes every entry of the three inputs a real number, and for real entries the two iterated
  sums are equal (distributivity and an exchange of the summations: `GraphConv.assoc_entry`).
-/
import proofs.«161417_g6665789243860_cont_9to1c4b_662_4_alg».proof.Defs
import proofs.«161417_g6665789243860_cont_9to1c4b_662_4_alg».proof.Proof.Gen.Kernel.Frame
import proofs.«161417_g6665789243860_cont_9to1c4b_662_4_alg».proof.Proof.Gen.KernelIdeal.Frame
import proofs.«161417_g6665789243860_cont_9to1c4b_662_4_alg».proof.Proof.Gen.ReferenceIdeal.Run
import proofs.«161417_g6665789243860_cont_9to1c4b_662_4_alg».proof.Proof.Gen.ReferenceIdeal.Read
import proofs.«161417_g6665789243860_cont_9to1c4b_662_4_alg».proof.Proof.Gen.Pre_finite_inputs
import proofs.«161417_g6665789243860_cont_9to1c4b_662_4_alg».proof.Proof.MatLaw
import proofs.«161417_g6665789243860_cont_9to1c4b_662_4_alg».proof.Proof.RealInputs
import proofs.«161417_g6665789243860_cont_9to1c4b_662_4_alg».proof.Proof.RefValue
import proofs.«161417_g6665789243860_cont_9to1c4b_662_4_alg».proof.Proof.KernelValue

noncomputable section

namespace Cert.Proof.Claims

open Idealize.ShloMosaic Idealize.ShloMosaic.TcCoe Idealize.SL.Sem Idealize.ShloMosaic.ValueIdx GraphConv

/-- With real entries the reference's result array is the graph convolution of its arguments. -/
theorem ref_eq_conv (x : (⟨Cert.ReferenceIdeal.S10000x256, .f32⟩ : BufTy).Contents (Elt Ideal))
    (a : (⟨Cert.ReferenceIdeal.S10000x10000, .f32⟩ : BufTy).Contents (Elt Ideal))
    (w : (⟨Cert.ReferenceIdeal.S256x256, .f32⟩ : BufTy).Contents (Elt Ideal))
    (hx : ∀ i, ∃ r : ℝ, x i = ((r : ℝ) : EReal)) (ha : ∀ i, ∃ r : ℝ, a i = ((r : ℝ) : EReal))
    (hw : ∀ i, ∃ r : ℝ, w i = ((r : ℝ) : EReal)) :
    Cert.ReferenceIdeal.Read.val_main_v2 (F := Ideal) x a w = conv x a w := by
  funext i
  obtain ⟨p, o, rfl⟩ : ∃ (p : Fin 10000) (o : Fin 256), i = ix2 p o := ⟨i 0, i 1, eq_ix2 i⟩
  rw [Cert.ReferenceIdeal.Hand.ref_apply, conv_ix2, convAt_eq_assoc x a w hx ha hw]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the graph convolution of the (agreeing, real-valued) arguments in the result array. -/
theorem algebraic : Cert.algebraic_KernelIdeal_ReferenceIdeal := by
  intro m ρ m' ρ' hpre hagree
  refine ⟨fun c => conv (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨hx, ha, hw⟩ := real_of_pre _ _ _ (hpre c)
  rw [(hagree c).1, (hagree c).2.1, (hagree c).2.2]
  exact (Cert.ReferenceIdeal.Read.val_main_v2_eq _ _ _).trans (ref_eq_conv _ _ _ hx ha hw)

end Cert.Proof.Claims

end
-- ==== Proof.lean ====
/-
  The certificate of a dense graph convolution, out = adj · (x · Wᵀ), computed by a kernel that holds x and W
  resident and, for each block of 400 adjacency rows, forms (adj_block · x) · Wᵀ. At the ideal instance both
  programs' entries are iterated sums of the triple products adj (p, k) · x (k, d) · W (o, d); the kernel sums over
  the nodes k first, the reference over the features d first. The finiteness precondition makes all entries real
  numbers, where the two orders agree. The modules: Proof/MatLaw.lean (the law, and the convolution as one
  function of the three arrays), Proof/RealInputs.lean (the precondition read as "every entry is real"),
  Proof/BodyValue.lean (the body's two products at an index), Proof/KernelValue.lean (from the 25 row blocks to the
  whole result array), Proof/RefValue.lean (the reference at an index), Proof/Claims.lean (the five claims).
-/
import proofs.«161417_g6665789243860_cont_9to1c4b_662_4_alg».proof.Defs
import proofs.«161417_g6665789243860_cont_9to1c4b_662_4_alg».proof.Proof.Gen.Kernel
import proofs.«161417_g6665789243860_cont_9to1c4b_662_4_alg».proof.Proof.Gen.Kernel.Skeleton
import proofs.«161417_g6665789243860_cont_9to1c4b_662_4_alg».proof.Proof.Gen.Kernel.Launch
import proofs.«161417_g6665789243860_cont_9to1c4b_662_4_alg».proof.Proof.Gen.Kernel.Points
import proofs.«161417_g6665789243860_cont_9to1c4b_662_4_alg».proof.Proof.Gen.Kernel.Frame
import proofs.«161417_g6665789243860_cont_9to1c4b_662_4_alg».proof.Proof.Gen.KernelIdeal
import proofs.«161417_g6665789243860_cont_9to1c4b_662_4_alg».proof.Proof.Gen.KernelIdeal.Skeleton
import proofs.«161417_g6665789243860_cont_9to1c4b_662_4_alg».proof.Proof.Gen.KernelIdeal.Launch
import proofs.«161417_g6665789243860_cont_9to1c4b_662_4_alg».proof.Proof.Gen.KernelIdeal.Points
import proofs.«161417_g6665789243860_cont_9to1c4b_662_4_alg».proof.Proof.Gen.KernelIdeal.Frame
import proofs.«161417_g6665789243860_cont_9to1c4b_662_4_alg».proof.Proof.Gen.ReferenceIdeal
import proofs.«161417_g6665789243860_cont_9to1c4b_662_4_alg».proof.Proof.Gen.Pre_finite_inputs
import proofs.«161417_g6665789243860_cont_9to1c4b_662_4_alg».proof.Proof.Gen.KernelIdeal.Value
import proofs.«161417_g6665789243860_cont_9to1c4b_662_4_alg».proof.Proof.Gen.ReferenceIdeal.Run
import proofs.«161417_g6665789243860_cont_9to1c4b_662_4_alg».proof.Proof.Gen.ReferenceIdeal.Read
import proofs.«161417_g6665789243860_cont_9to1c4b_662_4_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
